-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x128 .f32) (main_arg6 : FVec F S128 .f32) (main_arg7 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S5000x128 : Shape := ⟨2, ![5000, 128]⟩

abbrev nBuf : Space → Nat
  | .hbm => 59
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x128, .f32⟩
  | .hbm, ⟨34, _⟩ => ⟨S_, .f32⟩
  | .hbm, ⟨35, _⟩ => ⟨S100000x128, .f32⟩
  | .hbm, ⟨36, _⟩ => ⟨S1600000x1, .i32⟩
  | .hbm, ⟨37, _⟩ => ⟨S100000x128, .f32⟩
  | .hbm, ⟨38, _⟩ => ⟨S100000x128, .f32⟩
  | .hbm, ⟨39, _⟩ => ⟨S100000x128, .f32⟩
  | .hbm, ⟨40, _⟩ => ⟨S1x128, .f32⟩
  | .hbm, ⟨41, _⟩ => ⟨S100000x128, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x128, .f32⟩
  | .hbm, ⟨51, _⟩ => ⟨S_, .f32⟩
  | .hbm, ⟨52, _⟩ => ⟨S100000x128, .f32⟩
  | .hbm, ⟨53, _⟩ => ⟨S1600000x1, .i32⟩
  | .hbm, ⟨54, _⟩ => ⟨S100000x128, .f32⟩
  | .hbm, ⟨55, _⟩ => ⟨S100000x128, .f32⟩
  | .hbm, ⟨56, _⟩ => ⟨S100000x128, .f32⟩
  | .hbm, ⟨57, _⟩ => ⟨S1x128, .f32⟩
  | .hbm, ⟨58, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S5000x128, .f32⟩
  | .local _ .vmem, ⟨17, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v24) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v38) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v39) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 77
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S100000x128, .f32⟩
  | .hbm, ⟨38, _⟩ => ⟨S1x128, .f32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S100000x128, .f32⟩
  | .hbm, ⟨43, _⟩ => ⟨S_, .f32⟩
  | .hbm, ⟨44, _⟩ => ⟨S100000x128, .f32⟩
  | .hbm, ⟨45, _⟩ => ⟨S100000x128, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x128, .f32⟩
  | .hbm, ⟨55, _⟩ => ⟨S_, .f32⟩
  | .hbm, ⟨56, _⟩ => ⟨S100000x128, .f32⟩
  | .hbm, ⟨57, _⟩ => ⟨S1600000x1, .i32⟩
  | .hbm, ⟨58, _⟩ => ⟨S100000x128, .f32⟩
  | .hbm, ⟨59, _⟩ => ⟨S_, .f32⟩
  | .hbm, ⟨60, _⟩ => ⟨S1600000, .f32⟩
  | .hbm, ⟨61, _⟩ => ⟨S_, .f32⟩
  | .hbm, ⟨62, _⟩ => ⟨S100000, .f32⟩
  | .hbm, ⟨63, _⟩ => ⟨S1600000x1, .i32⟩
  | .hbm, ⟨64, _⟩ => ⟨S100000, .f32⟩
  | .hbm, ⟨65, _⟩ => ⟨S_, .f32⟩
  | .hbm, ⟨66, _⟩ => ⟨S100000, .f32⟩
  | .hbm, ⟨67, _⟩ => ⟨S100000, .f32⟩
  | .hbm, ⟨68, _⟩ => ⟨S100000x1, .f32⟩
  | .hbm, ⟨69, _⟩ => ⟨S100000x128, .f32⟩
  | .hbm, ⟨70, _⟩ => ⟨S100000x128, .f32⟩
  | .hbm, ⟨71, _⟩ => ⟨S100000x128, .f32⟩
  | .hbm, ⟨72, _⟩ => ⟨S1x128, .f32⟩
  | .hbm, ⟨73, _⟩ => ⟨S100000x128, .f32⟩
  | .hbm, ⟨74, _⟩ => ⟨S100000x128, .f32⟩
  | .hbm, ⟨75, _⟩ => ⟨S100000x128, .f32⟩
  | .hbm, ⟨76, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.LibReshapeAsBroadcast.lean ====
/-
  A vector laid out as a one-row table, or as a one-column table, by a reshape is the same table as the one a broadcast
  along the other axis makes: both hold x k at (0, k), respectively at (k, 0).

  Both sides are read index by index. A reshape keeps the row-major position: entry (0, k) of a table of one row of
  length n sits at position 0 * n + k = k, and entry (k, 0) of a table of n rows of length one at position k * 1 + 0 = k,
  so either reads entry k of the vector. A broadcast along axis b reads the vector at the b-th coordinate of the index
  (at 0 if the vector has a single entry, which is then that same coordinate): k again.
-/
import Idealize.ShloMosaic.Lib.Pipeline.Value
import Idealize.ShloMosaic.Lib.ValueIdx

noncomputable section

namespace Idealize.ShloMosaic.ReshapeAsBroadcast

open Idealize.ShloMosaic Idealize.ShloMosaic.ValueIdx

variable {α : Type}

/-- [n] to [1, n]. -/
theorem shapeCast_row (n : Nat) (x : (⟨1, ![n]⟩ : Shape).Idx → α)
    (h : (⟨1, ![n]⟩ : Shape).ShapeCasts ⟨2, ![1, n]⟩)
    (hb : (⟨1, ![n]⟩ : Shape).BroadcastsInDim ⟨2, ![1, n]⟩ (![1] : Fin 1 → Fin 2)) :
    shapeCast ⟨2, ![1, n]⟩ x h = broadcastInDim ⟨2, ![1, n]⟩ ![1] hb x := by
  funext j
  -- the only row is row 0; the column is below n
  have hj0 : (j 0).val = 0 := by
    have h0 : (j 0).val < 1 := (j 0).isLt
    omega
  have hj1 : (j 1).val < n := (j 1).isLt
  -- the entry of the vector both sides read
  let k : (⟨1, ![n]⟩ : Shape).Idx := fun a => ⟨(j 1).val, by
    have ha : a = 0 := Subsingleton.elim _ _
    subst ha
    exact hj1⟩
  have hL : shapeCast ⟨2, ![1, n]⟩ x h j = x k := by
    refine shapeCast_apply x h j k ?_
    rw [Shape.rowMajor_val_one, Shape.rowMajor_val_two]
    show (j 1).val = (j 0).val * n + (j 1).val
    rw [hj0]
    omega
  have hR : broadcastInDim ⟨2, ![1, n]⟩ ![1] hb x j = x k := by
    refine broadcastInDim_apply ![1] hb x j k ?_
    intro a
    have ha : a = 0 := Subsingleton.elim _ _
    subst ha
    show (j 1).val = if n = 1 then 0 else (j 1).val
    by_cases hn : n = 1
    · rw [if_pos hn]; omega
    · rw [if_neg hn]
  rw [hL, hR]

/-- [n] to [n, 1]. -/
theorem shapeCast_col (n : Nat) (x : (⟨1, ![n]⟩ : Shape).Idx → α)
    (h : (⟨1, ![n]⟩ : Shape).ShapeCasts ⟨2, ![n, 1]⟩)
    (hb : (⟨1, ![n]⟩ : Shape).BroadcastsInDim ⟨2, ![n, 1]⟩ (![0] : Fin 1 → Fin 2)) :
    shapeCast ⟨2, ![n, 1]⟩ x h = broadcastInDim ⟨2, ![n, 1]⟩ ![0] hb x := by
  funext j
  -- the only column is column 0; the row is below n
  have hj1 : (j 1).val = 0 := by
    have h1 : (j 1).val < 1 := (j 1).isLt
    omega
  have hj0 : (j 0).val < n := (j 0).isLt
  let k : (⟨1, ![n]⟩ : Shape).Idx := fun a => ⟨(j 0).val, by
    have ha : a = 0 := Subsingleton.elim _ _
    subst ha
    exact hj0⟩
  have hL : shapeCast ⟨2, ![n, 1]⟩ x h j = x k := by
    refine shapeCast_apply x h j k ?_
    rw [Shape.rowMajor_val_one, Shape.rowMajor_val_two]
    show (j 0).val = (j 0).val * 1 + (j 1).val
    rw [hj1]
    omega
  have hR : broadcastInDim ⟨2, ![n, 1]⟩ ![0] hb x j = x k := by
    refine broadcastInDim_apply ![0] hb x j k ?_
    intro a
    have ha : a = 0 := Subsingleton.elim _ _
    subst ha
    show (j 0).val = if n = 1 then 0 else (j 0).val
    by_cases hn : n = 1
    · rw [if_pos hn]; omega
    · rw [if_neg hn]
  rw [hL, hR]

end Idealize.ShloMosaic.ReshapeAsBroadcast

end
-- ==== Proof.LayerLaws.lean ====
/-
  The arithmetic of one graph-convolution layer, away from any program.

  A layer takes the neighbour sums s (one row per node), the node's own features x, two weight matrices and a bias
  row, and the in-degree of every node. The row of s for node p is scaled by 1 / max(deg p, 1) (the mean over the
  neighbours, an isolated node keeping its zero sum), and the layer's entry (p, j) is

      sum_k (scaled s)(p, k) * Wl(k, j)  +  b(j)  +  sum_k x(p, k) * Wr(k, j).

  Two facts are proved here.

  * Scaling by the reciprocal is dividing. On the extended reals x / y is x * y⁻¹ whenever y is not 0, and
    max(d, 1) is at least 1, so never 0: s * (1 / max(d, 1)) = s / max(d, 1) for EVERY extended real s and d, the
    infinities included. No finiteness is used. The whole-array form states this for a column of degrees laid
    beside the rows of s: once as a vector reshaped to a column and broadcast along the rows, once as the same
    vector broadcast twice.

  * The layer's entry is named (`denseAt`), for an entry of a block of rows as for an entry of the whole array.
-/
import Idealize.ShloMosaic.PureOps.Ideal
import Idealize.ShloMosaic.PureOps.Ideal.Laws
import Idealize.ShloMosaic.Lib.IdealHost
import Idealize.ShloMosaic.Lib.ValueIdx
import Idealize.ShloMosaic.Lib.Pipeline.Value
import proofs.«179225_j2654289789451_1_alg».proof.Proof.LibReshapeAsBroadcast

noncomputable section

namespace Cert.Sage

open Idealize.ShloMosaic Idealize.ShloMosaic.ValueIdx

/-- Scaling by the reciprocal of a number that is at least one is dividing by it, on every extended real. -/
theorem mul_recip_max_one (s d : EReal) : s * Ideal.div 1 (max d 1) = Ideal.div s (max d 1) := by
  have h : max d 1 ≠ 0 := (lt_of_lt_of_le zero_lt_one (le_max_right d 1)).ne'
  rw [Ideal.div, Ideal.div, if_neg h, if_neg h, one_mul]

/-- A vector laid as a column and then repeated along the rows holds, at (p, q), the vector's entry p. -/
theorem column_of_vector {α : Type} {n c : Nat} (v : (⟨1, ![n]⟩ : Shape).Idx → α)
    (hb1 : (⟨1, ![n]⟩ : Shape).BroadcastsInDim ⟨2, ![n, 1]⟩ (![0] : Fin 1 → Fin 2))
    (hb2 : (⟨2, ![n, 1]⟩ : Shape).BroadcastsInDim ⟨2, ![n, c]⟩ (![0, 1] : Fin 2 → Fin 2))
    (p : Fin n) (q : Fin c) :
    broadcastInDim ⟨2, ![n, c]⟩ ![0, 1] hb2 (broadcastInDim ⟨2, ![n, 1]⟩ ![0] hb1 v) (ix2 p q) = v (ix1 p) := by
  have e2 : broadcastInDim ⟨2, ![n, c]⟩ ![0, 1] hb2 (broadcastInDim ⟨2, ![n, 1]⟩ ![0] hb1 v) (ix2 p q)
      = broadcastInDim ⟨2, ![n, 1]⟩ ![0] hb1 v (ix2 p (0 : Fin 1)) :=
    broadcastInDim_apply ![0, 1] hb2 _ (ix2 p q) (ix2 p (0 : Fin 1)) (fun a => match a with
      | ⟨0, _⟩ => by
          show p.val = if n = 1 then 0 else p.val
          by_cases hn : n = 1
          · rw [if_pos hn]; have := p.isLt; omega
          · rw [if_neg hn]
      | ⟨1, _⟩ => by
          show (0 : Nat) = if (1 : Nat) = 1 then 0 else _
          rw [if_pos rfl])
  have e1 : broadcastInDim ⟨2, ![n, 1]⟩ ![0] hb1 v (ix2 p (0 : Fin 1)) = v (ix1 p) :=
    broadcastInDim_apply ![0] hb1 v (ix2 p (0 : Fin 1)) (ix1 p) (fun a => match a with
      | ⟨0, _⟩ => by
          show p.val = if n = 1 then 0 else p.val
          by_cases hn : n = 1
          · rw [if_pos hn]; have := p.isLt; omega
          · rw [if_neg hn])
  rw [e2, e1]

/-- The mean over the neighbours, in its two spellings: the neighbour sums times the column of reciprocal degrees
    (a vector of 1 / max(deg, 1), reshaped to a column and repeated along the rows) are the neighbour sums divided by
    the column of max(deg, 1) (the vector broadcast to a column and repeated along the rows). -/
theorem scale_by_recip_degree {n c : Nat}
    (s : FVec Ideal ⟨2, ![n, c]⟩ .f32) (deg : FVec Ideal ⟨1, ![n]⟩ .f32)
    (hb0 : (⟨0, ![]⟩ : Shape).BroadcastsInDim ⟨1, ![n]⟩ (![] : Fin 0 → Fin 1))
    (hsc : (⟨1, ![n]⟩ : Shape).ShapeCasts ⟨2, ![n, 1]⟩)
    (hb1 : (⟨1, ![n]⟩ : Shape).BroadcastsInDim ⟨2, ![n, 1]⟩ (![0] : Fin 1 → Fin 2))
    (hb2 : (⟨2, ![n, 1]⟩ : Shape).BroadcastsInDim ⟨2, ![n, c]⟩ (![0, 1] : Fin 2 → Fin 2)) :
    mulf s (broadcastInDim ⟨2, ![n, c]⟩ ![0, 1] hb2
        (shapeCast ⟨2, ![n, 1]⟩
          (Host.divf (F := Ideal) (broadcastInDim ⟨1, ![n]⟩ ![] hb0 (constant (F := Ideal) ⟨0, ![]⟩ .f32 0x3F800000#32))
            (maximumf deg (broadcastInDim ⟨1, ![n]⟩ ![] hb0 (constant (F := Ideal) ⟨0, ![]⟩ .f32 0x3F800000#32)))) hsc))
      = Host.divf (F := Ideal) s (broadcastInDim ⟨2, ![n, c]⟩ ![0, 1] hb2
          (broadcastInDim ⟨2, ![n, 1]⟩ ![0] hb1
            (maximumf deg (broadcastInDim ⟨1, ![n]⟩ ![] hb0 (constant (F := Ideal) ⟨0, ![]⟩ .f32 0x3F800000#32))))) := by
  rw [ReshapeAsBroadcast.shapeCast_col n _ hsc hb1]
  funext j
  obtain ⟨p, q, rfl⟩ : ∃ (p : Fin n) (q : Fin c), j = ix2 p q := ⟨j 0, j 1, eq_ix2 j⟩
  have hL := column_of_vector
    (Host.divf (F := Ideal) (broadcastInDim ⟨1, ![n]⟩ ![] hb0 (constant (F := Ideal) ⟨0, ![]⟩ .f32 0x3F800000#32))
      (maximumf deg (broadcastInDim ⟨1, ![n]⟩ ![] hb0 (constant (F := Ideal) ⟨0, ![]⟩ .f32 0x3F800000#32)))) hb1 hb2 p q
  have hR := column_of_vector
    (maximumf deg (broadcastInDim ⟨1, ![n]⟩ ![] hb0 (constant (F := Ideal) ⟨0, ![]⟩ .f32 0x3F800000#32))) hb1 hb2 p q
  show s (ix2 p q) * _ = Ideal.div (s (ix2 p q)) _
  rw [hL, hR]
  show s (ix2 p q) * Ideal.div (Ideal.ofBits .f32 0x3F800000#32) (max (deg (ix1 p)) (Ideal.ofBits .f32 0x3F800000#32))
    = Ideal.div (s (ix2 p q)) (max (deg (ix1 p)) (Ideal.ofBits .f32 0x3F800000#32))
  rw [Ideal.ofBits_one_f32]
  exact mul_recip_max_one _ _

/-- Entry (p, j) of one layer before its activation: the scaled neighbour sums through the left weights, the bias,
    the node's own features through the right weights. The rows may be those of a block (R rows) or of the whole
    array. -/
def denseAt {R : Nat} (a x : (⟨2, ![R, 128]⟩ : Shape).Idx → EReal) (wl : (⟨2, ![128, 128]⟩ : Shape).Idx → EReal)
    (b : (⟨1, ![128]⟩ : Shape).Idx → EReal) (wr : (⟨2, ![128, 128]⟩ : Shape).Idx → EReal) (p : Fin R) (j : Fin 128) : EReal :=
  (∑ k : Fin 128, a (ix2 p k) * wl (ix2 k j)) + b (ix1 j) + ∑ k : Fin 128, x (ix2 p k) * wr (ix2 k j)

end Cert.Sage

end
-- ==== Proof.LibPlainDot.lean ====
/-
  A matrix product read at an entry.

  For the dimension numbers of the plain product of an M × K matrix with a K × N matrix (contract the left
  operand's second axis against the right operand's first, no batch axis) the sum over the product's contraction
  index is the familiar sum over `k : Fin K` of `l (a, k) · r (k, b)`. Stated for ANY record with those dimension
  numbers, so one lemma serves every such product of a program whatever the three extents; the forms for a
  `tpu.matmul` into a zero accumulator and for the host's `dot_general` at the ideal values follow.
-/
import Idealize.ShloMosaic.PureOps.Ideal.Laws
import Idealize.ShloMosaic.Lib.ValueIdx

noncomputable section

namespace Cert.LibPlainDot

open Idealize.ShloMosaic Idealize.ShloMosaic.ValueIdx

variable {M K N : Nat}

/-- The plain product's sum over its contraction index is the sum over `k : Fin K` of `l (a, k) * r (k, b)`. -/
theorem dot_sum (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (l : (⟨2, ![M, K]⟩ : Shape).Idx → EReal) (r : (⟨2, ![K, N]⟩ : Shape).Idx → EReal) (a : Fin M) (b : Fin N) :
    ∑ k : d.contr.Idx, l (d.lhsIdx (ix2 a b) k) * r (d.rhsIdx (ix2 a b) k) = ∑ k : Fin K, l (ix2 a k) * r (ix2 k b) := by
  obtain ⟨lc, rc, ln, rn, lb, rb, wf⟩ := d
  dsimp only at hlc hrc hln hrn hlb hrb
  subst hlc hrc hln hrn hlb hrb
  generalize hd : (⟨[1], [0], [0], [1], [], [], wf⟩ : DotDims ⟨2, ![M, K]⟩ ⟨2, ![K, N]⟩ ⟨2, ![M, N]⟩) = d
  have hlc : d.lhsContracting = [1] := by rw [← hd]
  have hrc : d.rhsContracting = [0] := by rw [← hd]
  have hr : d.contr.rank = 1 := by rw [← hd]; rfl
  have hs : d.contr.size ⟨0, by omega⟩ = K := by subst hd; rfl
  have l0 : ∀ q : d.contr.Idx, (d.lhsIdx (ix2 a b) q 0).val = a.val := by
    subst hd; intro q
    unfold DotDims.lhsIdx
    rw [dif_neg (show ¬ (0 : Fin 2) ∈ ([] : List (Fin 2)) from List.not_mem_nil),
      dif_pos (show (0 : Fin 2) ∈ ([0] : List (Fin 2)) from List.mem_singleton.mpr rfl)]
    rfl
  have r1 : ∀ q : d.contr.Idx, (d.rhsIdx (ix2 a b) q 1).val = b.val := by
    subst hd; intro q
    unfold DotDims.rhsIdx
    rw [dif_neg (show ¬ (1 : Fin 2) ∈ ([] : List (Fin 2)) from List.not_mem_nil),
      dif_pos (show (1 : Fin 2) ∈ ([1] : List (Fin 2)) from List.mem_singleton.mpr rfl)]
    rfl
  rw [← Equiv.sum_comp (contrEquiv1 d K hr hs).symm]
  refine Finset.sum_congr rfl fun k _ => ?_
  have hk := contrEquiv1_symm_val d K hr hs k
  have el : d.lhsIdx (ix2 a b) ((contrEquiv1 d K hr hs).symm k) = ix2 a k := funext fun ax => Fin.ext (by
    match ax with
    | ⟨0, _⟩ => exact l0 _
    | ⟨1, _⟩ => exact (d.lhsIdx_val_of_single hlc _ _).trans hk)
  have er : d.rhsIdx (ix2 a b) ((contrEquiv1 d K hr hs).symm k) = ix2 k b := funext fun ax => Fin.ext (by
    match ax with
    | ⟨0, _⟩ => exact (d.rhsIdx_val_of_single hrc _ _).trans hk
    | ⟨1, _⟩ => exact r1 _)
  rw [el, er]

/-- A `tpu.matmul` of the plain dimension numbers into the zero accumulator, at the ideal values, at entry (a, b). -/
theorem matmul_zero_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision)
    (l : FVec Ideal ⟨2, ![M, K]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 a k) * r (ix2 k b) :=
  (Ideal.matmul_constant_zero_apply d prec l r (ix2 a b)).trans (dot_sum d hlc hrc hln hrn hlb hrb l r a b)

/-- The host's `dot_general` of the plain dimension numbers, at the ideal values, at entry (a, b). -/
theorem dotGeneral_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (sched : HostSchedule)
    (l : FVec Ideal ⟨2, ![M, K]⟩ φ₁) (r : FVec Ideal ⟨2, ![K, N]⟩ φ₂) (a : Fin M) (b : Fin N) :
    FloatOps.dotGeneral d prec sched l r (ix2 a b) = ∑ k : Fin K, l (ix2 a k) * r (ix2 k b) :=
  (Ideal.dotGeneral_apply d prec sched l r (ix2 a b)).trans (dot_sum d hlc hrc hln hrn hlb hrb l r a b)

end Cert.LibPlainDot

end
-- ==== Proof.LibRowBroadcast.lean ====
/-
  A one-row table repeated down the rows of a taller table, read at an entry.

  Broadcasting a table of one row and c columns to n rows and c columns copies the row into every row: entry (p, k) of
  the result is entry (0, k) of the one-row table, whatever the row p. (The broadcast reads the operand at coordinate 0
  on every axis where the operand has extent one, and at the result's own coordinate elsewhere; when c itself is one the
  column coordinate k is 0 as well.)
-/
import Idealize.ShloMosaic.Lib.Pipeline.Value
import Idealize.ShloMosaic.Lib.ValueIdx

noncomputable section

namespace Idealize.ShloMosaic.RowBroadcast

open Idealize.ShloMosaic Idealize.ShloMosaic.ValueIdx

/-- [1, c] broadcast to [n, c], at entry (p, k): the row's entry (0, k). -/
theorem broadcastTo_row {α : Type} {n c : Nat} (x : (⟨2, ![1, c]⟩ : Shape).Idx → α)
    (h : (⟨2, ![1, c]⟩ : Shape).Broadcasts ⟨2, ![n, c]⟩) (p : Fin n) (k : Fin c) :
    broadcastTo ⟨2, ![n, c]⟩ x h (ix2 p k) = x (ix2 (0 : Fin 1) k) :=
  broadcastTo_apply x h (ix2 p k) (ix2 (0 : Fin 1) k) (fun a => match a with
    | ⟨0, _⟩ => by
        show (0 : Nat) = if (1 : Nat) = 1 then 0 else _
        rw [if_pos rfl]
    | ⟨1, _⟩ => by
        show k.val = if c = 1 then 0 else k.val
        by_cases hc : c = 1
        · rw [if_pos hc]; have hk := k.isLt; omega
        · rw [if_neg hc])

end Idealize.ShloMosaic.RowBroadcast

end
-- ==== Proof.Region0Value.lean ====
/-
  The first layer's kernel region: what its result array holds when the region ends.

  The region walks twenty blocks of 5000 node rows. At block t the body loads rows t*5000 .. t*5000+4999 of the
  scaled neighbour sums and of the node features, the two whole weight matrices and the one-row bias, and stores

      max( sum_k a(p, k) * Wl(k, j)  +  b(0, j)  +  sum_k x(p, k) * Wr(k, j) , 0 )

  at (p, j) of the block of the result. A change of float format is the identity on the extended reals and a matrix
  product into a zero accumulator is the plain sum, so every stored entry is the layer's entry `Sage.denseAt`, cut at 0
  from below. Row r of the result lies in block r / 5000, every block is written back, so the result array is that
  function of the arrays the region finds, at every index.
-/
import proofs.«179225_j2654289789451_1_alg».proof.Proof.Gen.KernelIdeal.Frame
import proofs.«179225_j2654289789451_1_alg».proof.Proof.LayerLaws
import proofs.«179225_j2654289789451_1_alg».proof.Proof.LibPlainDot
import proofs.«179225_j2654289789451_1_alg».proof.Proof.LibRowBroadcast
import Idealize.ShloMosaic.Lib.Pipeline.Value
import Idealize.ShloMosaic.Lib.ValueIdx
import Idealize.ShloMosaic.PureOps.Ideal.Laws

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- The one row of a one-row table, as a vector. -/
def rowOf (b2 : S1x128.Idx → EReal) : (⟨1, ![128]⟩ : Shape).Idx → EReal := fun i => b2 (ix2 (0 : Fin 1) (i 0))

/-- What the body stores, at entry (p, j) of its block: the layer's entry, cut at 0 from below. -/
theorem stored_entry (a x : Vec Ideal S5000x128 .f32) (wl wr : Vec Ideal S128x128 .f32) (b : Vec Ideal S1x128 .f32)
    (p : Fin 5000) (j : Fin 128) :
    (k0_pay1 (F := Ideal) a x wl wr b) (ix2 p j) = max (Sage.denseAt a x wl (rowOf b) wr p j) 0 := by
  unfold k0_pay1
  rw [shapeCast_self a, shapeCast_self b]
  have e1 := LibPlainDot.matmul_zero_apply (M := 5000) (K := 128) (N := 128) dot_S5000x128_S128x128_S5000x128_1_0_0_1_n_n
    rfl rfl rfl rfl rfl rfl none (truncf (F := Ideal) .bf16 a bitsLt_bf16_f32) (truncf (F := Ideal) .bf16 wl bitsLt_bf16_f32) p j
  have e2 := LibPlainDot.matmul_zero_apply (M := 5000) (K := 128) (N := 128) dot_S5000x128_S128x128_S5000x128_1_0_0_1_n_n
    rfl rfl rfl rfl rfl rfl none (truncf (F := Ideal) .bf16 x bitsLt_bf16_f32) (truncf (F := Ideal) .bf16 wr bitsLt_bf16_f32) p j
  have e3 := RowBroadcast.broadcastTo_row (n := 5000) (c := 128) b broadcasts_S1x128_S5000x128 p j
  show max (FloatOps.matmul _ none _ _ _ (ix2 p j) + broadcastTo _ _ _ (ix2 p j) + FloatOps.matmul _ none _ _ _ (ix2 p j))
      (Ideal.ofBits .f32 0x00000000#32) = _
  rw [e1, e3, e2, Ideal.ofBits_zero_f32]
  rfl

variable (V : (c : Dev nD) → (b : Ref sig .tc) → Buf (Elt Ideal) ((c : Thread nD τ).loc b))

theorem hz : (![0, 0] : Fin 2 → Nat) = fun _ => 0 := funext fun a => by fin_cases a <;> rfl

/-- The region's result array, as one function of the arrays the region finds: entry (r, j) is the layer's entry over
    the whole arrays, cut at 0 from below. -/
def G (a x : S100000x128.Idx → Elt Ideal .f32) (wl : S128x128.Idx → Elt Ideal .f32) (b : S1x128.Idx → Elt Ideal .f32)
    (wr : S128x128.Idx → Elt Ideal .f32) : S100000x128.Idx → Elt Ideal .f32 :=
  fun i => max (Sage.denseAt a x wl (rowOf b) wr (i 0) (i 1)) 0

/-- The printed index maps over the grid: the row-blocked windows sit at block t, the others at block 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row p of block t is row t * 5000 + p of the array. -/
def rowAt (t : Fin cfg0.N) (p : Fin 5000) : Fin 100000 :=
  ⟨t.val * 5000 + p.val, by have ht : t.val < 20 := N_0 ▸ t.isLt; have := p.isLt; omega⟩

/-- The scaled neighbour sums' block at point t. -/
theorem read_a (c : Dev nD) (t : Fin cfg0.N) (p : Fin 5000) (k : Fin 128) :
    iblk0 V c 0 t (ix2 p k) = V c main_v24 (ix2 (rowAt t p) k) := by
  obtain ⟨e0, e1, -⟩ := idx_facts t
  show V c main_v24 (((cfg0.win 0).blk t).view.emb (ix2 p k)) = V c main_v24 (ix2 (rowAt t p) k)
  refine congrArg _ (funext fun a => Fin.ext ?_)
  match a with
  | ⟨0, _⟩ => show win0_0.index t (0 : Fin 2) * 5000 + 1 * p.val = t.val * 5000 + p.val; omega
  | ⟨1, _⟩ => show win0_0.index t (1 : Fin 2) * 128 + 1 * k.val = k.val; omega

/-- The node features' block at point t. -/
theorem read_x (c : Dev nD) (t : Fin cfg0.N) (p : Fin 5000) (k : Fin 128) :
    iblk0 V c 1 t (ix2 p k) = V c main_arg0 (ix2 (rowAt t p) k) := by
  obtain ⟨-, -, e0, e1, -⟩ := idx_facts t
  show V c main_arg0 (((cfg0.win 1).blk t).view.emb (ix2 p k)) = V c main_arg0 (ix2 (rowAt t p) k)
  refine congrArg _ (funext fun a => Fin.ext ?_)
  match a with
  | ⟨0, _⟩ => show win0_1.index t (0 : Fin 2) * 5000 + 1 * p.val = t.val * 5000 + p.val; omega
  | ⟨1, _⟩ => show win0_1.index t (1 : Fin 2) * 128 + 1 * k.val = k.val; omega

/-- The left weights, whole at every point. -/
theorem read_wl (c : Dev nD) (t : Fin cfg0.N) (k j : Fin 128) :
    iblk0 V c 2 t (ix2 k j) = V c main_arg2 (ix2 k j) := by
  obtain ⟨-, -, -, -, e0, e1, -⟩ := idx_facts t
  show V c main_arg2 (((cfg0.win 2).blk t).view.emb (ix2 k j)) = V c main_arg2 (ix2 k j)
  refine congrArg _ (funext fun a => Fin.ext ?_)
  match a with
  | ⟨0, _⟩ => show win0_2.index t (0 : Fin 2) * 128 + 1 * k.val = k.val; omega
  | ⟨1, _⟩ => show win0_2.index t (1 : Fin 2) * 128 + 1 * j.val = j.val; omega

/-- The bias row, whole at every point. -/
theorem read_b (c : Dev nD) (t : Fin cfg0.N) (j : Fin 128) :
    iblk0 V c 3 t (ix2 (0 : Fin 1) j) = V c main_v25 (ix2 (0 : Fin 1) j) := by
  obtain ⟨-, -, -, -, -, -, e0, e1, -⟩ := idx_facts t
  show V c main_v25 (((cfg0.win 3).blk t).view.emb (ix2 (0 : Fin 1) j)) = V c main_v25 (ix2 (0 : Fin 1) j)
  refine congrArg _ (funext fun a => Fin.ext ?_)
  match a with
  | ⟨0, _⟩ => show win0_3.index t (0 : Fin 2) * 1 + 1 * 0 = 0; omega
  | ⟨1, _⟩ => show win0_3.index t (1 : Fin 2) * 128 + 1 * j.val = j.val; omega

/-- The right weights, whole at every point. -/
theorem read_wr (c : Dev nD) (t : Fin cfg0.N) (k j : Fin 128) :
    iblk0 V c 4 t (ix2 k j) = V c main_arg4 (ix2 k j) := by
  obtain ⟨-, -, -, -, -, -, -, -, e0, e1, -⟩ := idx_facts t
  show V c main_arg4 (((cfg0.win 4).blk t).view.emb (ix2 k j)) = V c main_arg4 (ix2 k j)
  refine congrArg _ (funext fun a => Fin.ext ?_)
  match a with
  | ⟨0, _⟩ => show win0_4.index t (0 : Fin 2) * 128 + 1 * k.val = k.val; omega
  | ⟨1, _⟩ => show win0_4.index t (1 : Fin 2) * 128 + 1 * j.val = j.val; omega

/-- Where entry (p, j) of the result's block at point t lies in the result array. -/
theorem emb_out (t : Fin cfg0.N) (p : Fin 5000) (j : Fin 128) :
    ((cfg0.win 5).blk t).view.emb (ix2 p j) = ix2 (rowAt t p) j := by
  obtain ⟨-, -, -, -, -, -, -, -, -, -, e0, e1⟩ := idx_facts t
  refine funext fun a => Fin.ext ?_
  match a with
  | ⟨0, _⟩ => show win0_5.index t (0 : Fin 2) * 5000 + 1 * p.val = t.val * 5000 + p.val; omega
  | ⟨1, _⟩ => show win0_5.index t (1 : Fin 2) * 128 + 1 * j.val = j.val; omega

/-- What point t writes back is block t of `G` of the arrays the region finds. -/
theorem flushed_eq (c : Dev nD) (t : Fin cfg0.N) :
    (dat0 V c).flushed 5 t = ((cfg0.win 5).blk t).view.read (Elt Ideal)
      (G (V c main_v24) (V c main_arg0) (V c main_arg2) (V c main_v25) (V c main_arg4)) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S1x128) hz]
  funext y
  obtain ⟨p, j, rfl⟩ : ∃ (p : Fin 5000) (j : Fin 128), y = ix2 p j := ⟨y 0, y 1, eq_ix2 y⟩
  show k0_pay1 (F := Ideal) (iblk0 V c 0 t) (iblk0 V c 1 t) (iblk0 V c 2 t) (iblk0 V c 4 t) (iblk0 V c 3 t) (ix2 p j)
    = G (V c main_v24) (V c main_arg0) (V c main_arg2) (V c main_v25) (V c main_arg4) (((cfg0.win 5).blk t).view.emb (ix2 p j))
  rw [emb_out t p j]
  refine (stored_entry (iblk0 V c 0 t) (iblk0 V c 1 t) (iblk0 V c 2 t) (iblk0 V c 4 t) (iblk0 V c 3 t) p j).trans ?_
  show max (Sage.denseAt (iblk0 V c 0 t) (iblk0 V c 1 t) (iblk0 V c 2 t) (rowOf (iblk0 V c 3 t)) (iblk0 V c 4 t) p j) 0
    = max (Sage.denseAt (V c main_v24) (V c main_arg0) (V c main_arg2) (rowOf (V c main_v25)) (V c main_arg4) (rowAt t p) j) 0
  refine congrArg (fun z => max z 0) ?_
  unfold Sage.denseAt
  refine congrArg₂ (· + ·) (congrArg₂ (· + ·) (Finset.sum_congr rfl fun k _ => ?_) ?_) (Finset.sum_congr rfl fun k _ => ?_)
  · rw [read_a V c t p k, read_wl V c t k j]
  · exact read_b V c t j
  · rw [read_x V c t p k, read_wr V c t k j]

/-- An index of the result array is in point t's block iff each coordinate is in the block's range on its axis. -/
theorem mem_blk (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v26).slice (win0_5.rect t)).set ↔ _
  rw [View.set_slice_whole, Rect.mem_set_unit]
  exact Iff.rfl

/-- Row r lies in block r / 5000, and every block is written back. -/
theorem cover (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 20 := N_0
  refine ⟨⟨(i 0).val / 5000, by rw [hN]; omega⟩, flush0_5 _, ?_⟩
  rw [mem_blk]
  obtain ⟨-, -, -, -, -, -, -, -, -, -, e0, e1⟩ := idx_facts ⟨(i 0).val / 5000, by rw [hN]; omega⟩
  intro a
  match a with
  | ⟨0, _⟩ =>
    show win0_5.index ⟨(i 0).val / 5000, _⟩ (0 : Fin 2) * 5000 ≤ (i 0).val ∧ (i 0).val < win0_5.index ⟨(i 0).val / 5000, _⟩ (0 : Fin 2) * 5000 + 5000
    rw [e0]; show (i 0).val / 5000 * 5000 ≤ (i 0).val ∧ (i 0).val < (i 0).val / 5000 * 5000 + 5000; omega
  | ⟨1, _⟩ =>
    show win0_5.index ⟨(i 0).val / 5000, _⟩ (1 : Fin 2) * 128 ≤ (i 1).val ∧ (i 1).val < win0_5.index ⟨(i 0).val / 5000, _⟩ (1 : Fin 2) * 128 + 128
    rw [e1]; omega

/-- THE RESULT ARRAY when the region ends: `G` of the arrays the region finds. -/
theorem final (c : Dev nD) :
    (dat0 V c).arrAt 5 cfg0.N = G (V c main_v24) (V c main_arg0) (V c main_arg2) (V c main_v25) (V c main_arg4) :=
  (dat0 V c).arrAt_eq_of_cover 5 _ (fun t _ => flushed_eq V c t) cover

end Cert.KernelIdeal.Region0

end
-- ==== Proof.Region1Value.lean ====
/-
  The second layer's kernel region: what its result array holds when the region ends.

  The same walk as the first layer's region, twenty blocks of 5000 node rows, over the second layer's arrays: the
  scaled neighbour sums of the hidden features, the hidden features themselves (the first region's result), the
  second pair of weight matrices and the second bias row. There is no activation: the body stores

      sum_k a(p, k) * Wl(k, j)  +  b(0, j)  +  sum_k h(p, k) * Wr(k, j)

  at (p, j) of the block of the result, which is the layer's entry `Sage.denseAt` as it stands. Row r of the result lies
  in block r / 5000 and every block is written back, so the result array is that function of the arrays the region
  finds, at every index.
-/
import proofs.«179225_j2654289789451_1_alg».proof.Proof.Gen.KernelIdeal.Frame
import proofs.«179225_j2654289789451_1_alg».proof.Proof.LayerLaws
import proofs.«179225_j2654289789451_1_alg».proof.Proof.LibPlainDot
import proofs.«179225_j2654289789451_1_alg».proof.Proof.LibRowBroadcast
import Idealize.ShloMosaic.Lib.Pipeline.Value
import Idealize.ShloMosaic.Lib.ValueIdx
import Idealize.ShloMosaic.PureOps.Ideal.Laws

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- The one row of a one-row table, as a vector. -/
def rowOf (b2 : S1x128.Idx → EReal) : (⟨1, ![128]⟩ : Shape).Idx → EReal := fun i => b2 (ix2 (0 : Fin 1) (i 0))

/-- What the body stores, at entry (p, j) of its block: the layer's entry. -/
theorem stored_entry (a h : Vec Ideal S5000x128 .f32) (wl wr : Vec Ideal S128x128 .f32) (b : Vec Ideal S1x128 .f32)
    (p : Fin 5000) (j : Fin 128) :
    (k1_pay1 (F := Ideal) a h wl wr b) (ix2 p j) = Sage.denseAt a h wl (rowOf b) wr p j := by
  unfold k1_pay1
  rw [shapeCast_self a, shapeCast_self h, shapeCast_self b]
  have e1 := LibPlainDot.matmul_zero_apply (M := 5000) (K := 128) (N := 128) dot_S5000x128_S128x128_S5000x128_1_0_0_1_n_n
    rfl rfl rfl rfl rfl rfl none (truncf (F := Ideal) .bf16 a bitsLt_bf16_f32) (truncf (F := Ideal) .bf16 wl bitsLt_bf16_f32) p j
  have e2 := LibPlainDot.matmul_zero_apply (M := 5000) (K := 128) (N := 128) dot_S5000x128_S128x128_S5000x128_1_0_0_1_n_n
    rfl rfl rfl rfl rfl rfl none (truncf (F := Ideal) .bf16 h bitsLt_bf16_f32) (truncf (F := Ideal) .bf16 wr bitsLt_bf16_f32) p j
  have e3 := RowBroadcast.broadcastTo_row (n := 5000) (c := 128) b broadcasts_S1x128_S5000x128 p j
  show FloatOps.matmul _ none _ _ _ (ix2 p j) + broadcastTo _ _ _ (ix2 p j) + FloatOps.matmul _ none _ _ _ (ix2 p j) = _
  rw [e1, e3, e2]
  rfl

variable (V : (c : Dev nD) → (b : Ref sig .tc) → Buf (Elt Ideal) ((c : Thread nD τ).loc b))

theorem hz : (![0, 0] : Fin 2 → Nat) = fun _ => 0 := funext fun a => by fin_cases a <;> rfl

/-- The region's result array, as one function of the arrays the region finds: entry (r, j) is the layer's entry over
    the whole arrays. -/
def G (a h : S100000x128.Idx → Elt Ideal .f32) (wl : S128x128.Idx → Elt Ideal .f32) (b : S1x128.Idx → Elt Ideal .f32)
    (wr : S128x128.Idx → Elt Ideal .f32) : S100000x128.Idx → Elt Ideal .f32 :=
  fun i => Sage.denseAt a h wl (rowOf b) wr (i 0) (i 1)

/-- The printed index maps over the grid: the row-blocked windows sit at block t, the others at block 0. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row p of block t is row t * 5000 + p of the array. -/
def rowAt (t : Fin cfg1.N) (p : Fin 5000) : Fin 100000 :=
  ⟨t.val * 5000 + p.val, by have ht : t.val < 20 := N_1 ▸ t.isLt; have := p.isLt; omega⟩

/-- The scaled neighbour sums' block at point t. -/
theorem read_a (c : Dev nD) (t : Fin cfg1.N) (p : Fin 5000) (k : Fin 128) :
    iblk1 V c 0 t (ix2 p k) = V c main_v38 (ix2 (rowAt t p) k) := by
  obtain ⟨e0, e1, -⟩ := idx_facts t
  show V c main_v38 (((cfg1.win 0).blk t).view.emb (ix2 p k)) = V c main_v38 (ix2 (rowAt t p) k)
  refine congrArg _ (funext fun a => Fin.ext ?_)
  match a with
  | ⟨0, _⟩ => show win1_0.index t (0 : Fin 2) * 5000 + 1 * p.val = t.val * 5000 + p.val; omega
  | ⟨1, _⟩ => show win1_0.index t (1 : Fin 2) * 128 + 1 * k.val = k.val; omega

/-- The hidden features' block at point t. -/
theorem read_h (c : Dev nD) (t : Fin cfg1.N) (p : Fin 5000) (k : Fin 128) :
    iblk1 V c 1 t (ix2 p k) = V c main_v26 (ix2 (rowAt t p) k) := by
  obtain ⟨-, -, e0, e1, -⟩ := idx_facts t
  show V c main_v26 (((cfg1.win 1).blk t).view.emb (ix2 p k)) = V c main_v26 (ix2 (rowAt t p) k)
  refine congrArg _ (funext fun a => Fin.ext ?_)
  match a with
  | ⟨0, _⟩ => show win1_1.index t (0 : Fin 2) * 5000 + 1 * p.val = t.val * 5000 + p.val; omega
  | ⟨1, _⟩ => show win1_1.index t (1 : Fin 2) * 128 + 1 * k.val = k.val; omega

/-- The left weights, whole at every point. -/
theorem read_wl (c : Dev nD) (t : Fin cfg1.N) (k j : Fin 128) :
    iblk1 V c 2 t (ix2 k j) = V c main_arg5 (ix2 k j) := by
  obtain ⟨-, -, -, -, e0, e1, -⟩ := idx_facts t
  show V c main_arg5 (((cfg1.win 2).blk t).view.emb (ix2 k j)) = V c main_arg5 (ix2 k j)
  refine congrArg _ (funext fun a => Fin.ext ?_)
  match a with
  | ⟨0, _⟩ => show win1_2.index t (0 : Fin 2) * 128 + 1 * k.val = k.val; omega
  | ⟨1, _⟩ => show win1_2.index t (1 : Fin 2) * 128 + 1 * j.val = j.val; omega

/-- The bias row, whole at every point. -/
theorem read_b (c : Dev nD) (t : Fin cfg1.N) (j : Fin 128) :
    iblk1 V c 3 t (ix2 (0 : Fin 1) j) = V c main_v39 (ix2 (0 : Fin 1) j) := by
  obtain ⟨-, -, -, -, -, -, e0, e1, -⟩ := idx_facts t
  show V c main_v39 (((cfg1.win 3).blk t).view.emb (ix2 (0 : Fin 1) j)) = V c main_v39 (ix2 (0 : Fin 1) j)
  refine congrArg _ (funext fun a => Fin.ext ?_)
  match a with
  | ⟨0, _⟩ => show win1_3.index t (0 : Fin 2) * 1 + 1 * 0 = 0; omega
  | ⟨1, _⟩ => show win1_3.index t (1 : Fin 2) * 128 + 1 * j.val = j.val; omega

/-- The right weights, whole at every point. -/
theorem read_wr (c : Dev nD) (t : Fin cfg1.N) (k j : Fin 128) :
    iblk1 V c 4 t (ix2 k j) = V c main_arg7 (ix2 k j) := by
  obtain ⟨-, -, -, -, -, -, -, -, e0, e1, -⟩ := idx_facts t
  show V c main_arg7 (((cfg1.win 4).blk t).view.emb (ix2 k j)) = V c main_arg7 (ix2 k j)
  refine congrArg _ (funext fun a => Fin.ext ?_)
  match a with
  | ⟨0, _⟩ => show win1_4.index t (0 : Fin 2) * 128 + 1 * k.val = k.val; omega
  | ⟨1, _⟩ => show win1_4.index t (1 : Fin 2) * 128 + 1 * j.val = j.val; omega

/-- Where entry (p, j) of the result's block at point t lies in the result array. -/
theorem emb_out (t : Fin cfg1.N) (p : Fin 5000) (j : Fin 128) :
    ((cfg1.win 5).blk t).view.emb (ix2 p j) = ix2 (rowAt t p) j := by
  obtain ⟨-, -, -, -, -, -, -, -, -, -, e0, e1⟩ := idx_facts t
  refine funext fun a => Fin.ext ?_
  match a with
  | ⟨0, _⟩ => show win1_5.index t (0 : Fin 2) * 5000 + 1 * p.val = t.val * 5000 + p.val; omega
  | ⟨1, _⟩ => show win1_5.index t (1 : Fin 2) * 128 + 1 * j.val = j.val; omega

/-- What point t writes back is block t of `G` of the arrays the region finds. -/
theorem flushed_eq (c : Dev nD) (t : Fin cfg1.N) :
    (dat1 V c).flushed 5 t = ((cfg1.win 5).blk t).view.read (Elt Ideal)
      (G (V c main_v38) (V c main_v26) (V c main_arg5) (V c main_v39) (V c main_arg7)) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S1x128) hz]
  funext y
  obtain ⟨p, j, rfl⟩ : ∃ (p : Fin 5000) (j : Fin 128), y = ix2 p j := ⟨y 0, y 1, eq_ix2 y⟩
  show k1_pay1 (F := Ideal) (iblk1 V c 0 t) (iblk1 V c 1 t) (iblk1 V c 2 t) (iblk1 V c 4 t) (iblk1 V c 3 t) (ix2 p j)
    = G (V c main_v38) (V c main_v26) (V c main_arg5) (V c main_v39) (V c main_arg7) (((cfg1.win 5).blk t).view.emb (ix2 p j))
  rw [emb_out t p j]
  refine (stored_entry (iblk1 V c 0 t) (iblk1 V c 1 t) (iblk1 V c 2 t) (iblk1 V c 4 t) (iblk1 V c 3 t) p j).trans ?_
  show Sage.denseAt (iblk1 V c 0 t) (iblk1 V c 1 t) (iblk1 V c 2 t) (rowOf (iblk1 V c 3 t)) (iblk1 V c 4 t) p j
    = Sage.denseAt (V c main_v38) (V c main_v26) (V c main_arg5) (rowOf (V c main_v39)) (V c main_arg7) (rowAt t p) j
  unfold Sage.denseAt
  refine congrArg₂ (· + ·) (congrArg₂ (· + ·) (Finset.sum_congr rfl fun k _ => ?_) ?_) (Finset.sum_congr rfl fun k _ => ?_)
  · rw [read_a V c t p k, read_wl V c t k j]
  · exact read_b V c t j
  · rw [read_h V c t p k, read_wr V c t k j]

/-- An index of the result array is in point t's block iff each coordinate is in the block's range on its axis. -/
theorem mem_blk (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v40).slice (win1_5.rect t)).set ↔ _
  rw [View.set_slice_whole, Rect.mem_set_unit]
  exact Iff.rfl

/-- Row r lies in block r / 5000, and every block is written back. -/
theorem cover (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 20 := N_1
  refine ⟨⟨(i 0).val / 5000, by rw [hN]; omega⟩, flush1_5 _, ?_⟩
  rw [mem_blk]
  obtain ⟨-, -, -, -, -, -, -, -, -, -, e0, e1⟩ := idx_facts ⟨(i 0).val / 5000, by rw [hN]; omega⟩
  intro a
  match a with
  | ⟨0, _⟩ =>
    show win1_5.index ⟨(i 0).val / 5000, _⟩ (0 : Fin 2) * 5000 ≤ (i 0).val ∧ (i 0).val < win1_5.index ⟨(i 0).val / 5000, _⟩ (0 : Fin 2) * 5000 + 5000
    rw [e0]; show (i 0).val / 5000 * 5000 ≤ (i 0).val ∧ (i 0).val < (i 0).val / 5000 * 5000 + 5000; omega
  | ⟨1, _⟩ =>
    show win1_5.index ⟨(i 0).val / 5000, _⟩ (1 : Fin 2) * 128 ≤ (i 1).val ∧ (i 1).val < win1_5.index ⟨(i 0).val / 5000, _⟩ (1 : Fin 2) * 128 + 128
    rw [e1]; omega

/-- THE RESULT ARRAY when the region ends: `G` of the arrays the region finds. -/
theorem final (c : Dev nD) :
    (dat1 V c).arrAt 5 cfg1.N = G (V c main_v38) (V c main_v26) (V c main_arg5) (V c main_v39) (V c main_arg7) :=
  (dat1 V c).arrAt_eq_of_cover 5 _ (fun t _ => flushed_eq V c t) cover

end Cert.KernelIdeal.Region1

end
-- ==== Proof.HostReads.lean ====
/-
  What the two kernel regions find in their arrays: the host operations around them, read.

  Before the first region the host code splits the edge list e into its source row and its destination row, wraps a
  negative source index around (src + 100000), counts for every node the edges that end there (a scatter-add of ones:
  the in-degree), takes 1 / max(degree, 1), gathers the source nodes' feature rows, adds them up per destination node
  (the neighbour sums), and scales row r of the sums by the reciprocal for node r. Between the regions it does the same
  gather, sum and scaling with the first region's result in place of the features, reusing the reciprocals. The bias
  vectors are laid out as one-row tables. Nothing here is computed: each array is named as the term the operations
  build, `mean e y` for the scaled neighbour sums of the rows y.
-/
import proofs.«179225_j2654289789451_1_alg».proof.Proof.Gen.KernelIdeal.Frame
import proofs.«179225_j2654289789451_1_alg».proof.Proof.Region0Value
import proofs.«179225_j2654289789451_1_alg».proof.Proof.Region1Value
import Idealize.ShloMosaic.Lib.StableHlo.Run

set_option maxRecDepth 16384

noncomputable section

namespace Cert.KernelIdeal.HostReads

open Cert.KernelIdeal Cert.KernelIdeal.Gen
open Idealize.ShloMosaic Idealize.ShloMosaic.TcCoe Idealize.ShloMosaic.ValueIdx Idealize.SL.Sem Idealize.ShloMosaic.StableHlo

/-! ## The terms the host operations build -/

/-- The source row of the edge list, as printed (before the wrap-around of negative indices). -/
def srcRaw (e : IVec S2x1600000 32) : IVec S1600000 32 :=
  shapeCast _ (extractStridedSlice S1x1600000 ![0, 0] e slices_S2x1600000_S1x1600000_0_0) shapeCasts_S1x1600000_S1600000

/-- The destination row of the edge list. -/
def dst (e : IVec S2x1600000 32) : IVec S1600000 32 :=
  shapeCast _ (extractStridedSlice S1x1600000 ![1, 0] e slices_S2x1600000_S1x1600000_1_0) shapeCasts_S1x1600000_S1600000

/-- The source indices with a negative one wrapped around. -/
def src (s : IVec S1600000 32) : IVec S1600000 32 :=
  select (cmpi .slt s (broadcastInDim S1600000 ![] bcast_S_S1600000 (constantI S_ 32 0#32)))
    (addi s (broadcastInDim S1600000 ![] bcast_S_S1600000 (constantI S_ 32 100000#32))) s

/-- The neighbour sums of the rows y: gather the source rows, add them up per destination node. -/
def nsum (s d : IVec S1600000 32) (y : FVec Ideal S100000x128 .f32) : FVec Ideal S100000x128 .f32 :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 d)
    (Host.gather gather_S100000x128_S1600000x1_S1600000x128_1_0_n_n_0_1_1128 y
      (broadcastInDim S1600000x1 ![0] bcast_S1600000_S1600000x1_0 (src s)))

/-- The in-degree of every node: a one added per edge at its destination. -/
def degree (d : IVec S1600000 32) : FVec Ideal S100000 .f32 :=
  Host.scatterAdd scatter_S100000_S1600000x1_S1600000_n_0_0_1
    (broadcastInDim S100000 ![] bcast_S_S100000 (constant (F := Ideal) S_ .f32 0x00000000#32))
    (broadcastInDim S1600000x1 ![0] bcast_S1600000_S1600000x1_0 d)
    (broadcastInDim S1600000 ![] bcast_S_S1600000 (constant (F := Ideal) S_ .f32 0x3F800000#32))

/-- The column of reciprocals 1 / max(degree, 1). -/
def recip (d : IVec S1600000 32) : FVec Ideal S100000x1 .f32 :=
  shapeCast S100000x1
    (Host.divf (F := Ideal) (broadcastInDim S100000 ![] bcast_S_S100000 (constant (F := Ideal) S_ .f32 0x3F800000#32))
      (maximumf (degree d) (broadcastInDim S100000 ![] bcast_S_S100000 (constant (F := Ideal) S_ .f32 0x3F800000#32))))
    shapeCasts_S100000_S100000x1

/-- The scaled neighbour sums of the rows y, as the kernel's host code spells them: sums times reciprocals. -/
def mean (s d : IVec S1600000 32) (y : FVec Ideal S100000x128 .f32) : FVec Ideal S100000x128 .f32 :=
  mulf (nsum s d y) (broadcastInDim S100000x128 ![0, 1] bcast_S100000x1_S100000x128_0_1 (recip d))

variable (m : (ℓ : Loc nD τ sig) → Buf (Elt Ideal) ℓ) (ρ : Dev nD → PrngReg)

/-! ## Before the first region -/

theorem W1_v1 (c : Dev nD) : W1 m ρ c (Proc.devRef .tc main_v1) = srcRaw (m ((c : Thread nD τ).loc main_arg1)) := by
  show StableHlo.after hostOps0 (W0 m ρ c) (Proc.devRef .tc main_v1) = _
  dsimp only [hostOps0]
  after_results
  rfl

theorem W1_v3 (c : Dev nD) : W1 m ρ c (Proc.devRef .tc main_v3) = dst (m ((c : Thread nD τ).loc main_arg1)) := by
  show StableHlo.after hostOps0 (W0 m ρ c) (Proc.devRef .tc main_v3) = _
  dsimp only [hostOps0]
  after_results
  rfl

theorem W1_v12 (c : Dev nD) : W1 m ρ c (Proc.devRef .tc main_v12) = recip (dst (m ((c : Thread nD τ).loc main_arg1))) := by
  show StableHlo.after hostOps0 (W0 m ρ c) (Proc.devRef .tc main_v12) = _
  dsimp only [hostOps0]
  after_results
  rfl

set_option maxHeartbeats 4000000 in
theorem V1_v24 (c : Dev nD) : V1 m ρ c main_v24
    = mean (srcRaw (m ((c : Thread nD τ).loc main_arg1))) (dst (m ((c : Thread nD τ).loc main_arg1))) (m ((c : Thread nD τ).loc main_arg0)) := by
  show StableHlo.after hostOps0 (W0 m ρ c) (Proc.devRef .tc main_v24) = _
  dsimp only [hostOps0]
  after_results_simp
  rfl

theorem V1_v25 (c : Dev nD) : V1 m ρ c main_v25 = shapeCast S1x128 (m ((c : Thread nD τ).loc main_arg3)) shapeCasts_S128_S1x128 := by
  show StableHlo.after hostOps0 (W0 m ρ c) (Proc.devRef .tc main_v25) = _
  dsimp only [hostOps0]
  after_results
  rfl

theorem V1_arg0 (c : Dev nD) : V1 m ρ c main_arg0 = m ((c : Thread nD τ).loc main_arg0) := by
  show StableHlo.after hostOps0 (W0 m ρ c) (Proc.devRef .tc main_arg0) = _
  dsimp only [hostOps0]
  after_results

theorem V1_arg2 (c : Dev nD) : V1 m ρ c main_arg2 = m ((c : Thread nD τ).loc main_arg2) := by
  show StableHlo.after hostOps0 (W0 m ρ c) (Proc.devRef .tc main_arg2) = _
  dsimp only [hostOps0]
  after_results

theorem V1_arg4 (c : Dev nD) : V1 m ρ c main_arg4 = m ((c : Thread nD τ).loc main_arg4) := by
  show StableHlo.after hostOps0 (W0 m ρ c) (Proc.devRef .tc main_arg4) = _
  dsimp only [hostOps0]
  after_results

/-- The hidden features as the kernel's program builds them: the first region's result over the scaled neighbour sums of
    the features. -/
def hidden (c : Dev nD) : FVec Ideal S100000x128 .f32 :=
  Region0.G
    (mean (srcRaw (m ((c : Thread nD τ).loc main_arg1))) (dst (m ((c : Thread nD τ).loc main_arg1))) (m ((c : Thread nD τ).loc main_arg0)))
    (m ((c : Thread nD τ).loc main_arg0)) (m ((c : Thread nD τ).loc main_arg2))
    (shapeCast S1x128 (m ((c : Thread nD τ).loc main_arg3)) shapeCasts_S128_S1x128) (m ((c : Thread nD τ).loc main_arg4))

/-! ## Between the regions: what the first region left, and what the host operations make of it -/

theorem W2_v1 (c : Dev nD) : W2 m ρ c (Proc.devRef .tc main_v1) = srcRaw (m ((c : Thread nD τ).loc main_arg1)) :=
  (W2_of_ne m ρ c main_v1 (by decide)).trans (W1_v1 m ρ c)

theorem W2_v3 (c : Dev nD) : W2 m ρ c (Proc.devRef .tc main_v3) = dst (m ((c : Thread nD τ).loc main_arg1)) :=
  (W2_of_ne m ρ c main_v3 (by decide)).trans (W1_v3 m ρ c)

theorem W2_v12 (c : Dev nD) : W2 m ρ c (Proc.devRef .tc main_v12) = recip (dst (m ((c : Thread nD τ).loc main_arg1))) :=
  (W2_of_ne m ρ c main_v12 (by decide)).trans (W1_v12 m ρ c)

theorem W2_v26 (c : Dev nD) : W2 m ρ c (Proc.devRef .tc main_v26) = hidden m c :=
  calc W2 m ρ c (Proc.devRef .tc main_v26)
    _ = (dat0 (V1 m ρ) c).arrAt 5 cfg0.N := W2_arr m ρ c 5
    _ = Region0.G (V1 m ρ c main_v24) (V1 m ρ c main_arg0) (V1 m ρ c main_arg2) (V1 m ρ c main_v25) (V1 m ρ c main_arg4) :=
        Region0.final (V1 m ρ) c
    _ = hidden m c := by
        rw [V1_v24 m ρ c, V1_arg0 m ρ c, V1_arg2 m ρ c, V1_v25 m ρ c, V1_arg4 m ρ c]
        rfl

theorem W2_arg5 (c : Dev nD) : W2 m ρ c (Proc.devRef .tc main_arg5) = m ((c : Thread nD τ).loc main_arg5) := by
  refine (W2_of_ne m ρ c main_arg5 (by decide)).trans ?_
  show StableHlo.after hostOps0 (W0 m ρ c) (Proc.devRef .tc main_arg5) = _
  dsimp only [hostOps0]
  after_results

theorem W2_arg6 (c : Dev nD) : W2 m ρ c (Proc.devRef .tc main_arg6) = m ((c : Thread nD τ).loc main_arg6) := by
  refine (W2_of_ne m ρ c main_arg6 (by decide)).trans ?_
  show StableHlo.after hostOps0 (W0 m ρ c) (Proc.devRef .tc main_arg6) = _
  dsimp only [hostOps0]
  after_results

theorem W2_arg7 (c : Dev nD) : W2 m ρ c (Proc.devRef .tc main_arg7) = m ((c : Thread nD τ).loc main_arg7) := by
  refine (W2_of_ne m ρ c main_arg7 (by decide)).trans ?_
  show StableHlo.after hostOps0 (W0 m ρ c) (Proc.devRef .tc main_arg7) = _
  dsimp only [hostOps0]
  after_results

set_option maxHeartbeats 4000000 in
theorem V3_v38 (c : Dev nD) : V3 m ρ c main_v38
    = mean (srcRaw (m ((c : Thread nD τ).loc main_arg1))) (dst (m ((c : Thread nD τ).loc main_arg1))) (hidden m c) := by
  show StableHlo.after hostOps1 (W2 m ρ c) (Proc.devRef .tc main_v38) = _
  dsimp only [hostOps1]
  after_results_simp
  rw [W2_v1 m ρ c, W2_v3 m ρ c, W2_v12 m ρ c, W2_v26 m ρ c]
  rfl

theorem V3_v26 (c : Dev nD) : V3 m ρ c main_v26 = hidden m c := by
  refine Eq.trans ?_ (W2_v26 m ρ c)
  show StableHlo.after hostOps1 (W2 m ρ c) (Proc.devRef .tc main_v26) = _
  dsimp only [hostOps1]
  after_results

theorem V3_arg5 (c : Dev nD) : V3 m ρ c main_arg5 = m ((c : Thread nD τ).loc main_arg5) := by
  refine Eq.trans ?_ (W2_arg5 m ρ c)
  show StableHlo.after hostOps1 (W2 m ρ c) (Proc.devRef .tc main_arg5) = _
  dsimp only [hostOps1]
  after_results

theorem V3_v39 (c : Dev nD) : V3 m ρ c main_v39 = shapeCast S1x128 (m ((c : Thread nD τ).loc main_arg6)) shapeCasts_S128_S1x128 := by
  show StableHlo.after hostOps1 (W2 m ρ c) (Proc.devRef .tc main_v39) = _
  dsimp only [hostOps1]
  after_results
  rw [W2_arg6 m ρ c]
  rfl

theorem V3_arg7 (c : Dev nD) : V3 m ρ c main_arg7 = m ((c : Thread nD τ).loc main_arg7) := by
  refine Eq.trans ?_ (W2_arg7 m ρ c)
  show StableHlo.after hostOps1 (W2 m ρ c) (Proc.devRef .tc main_arg7) = _
  dsimp only [hostOps1]
  after_results

/-! ## The result -/

/-- THE KERNEL PROGRAM'S RESULT: the second region's result array over the scaled neighbour sums of the hidden features. -/
theorem result_eq (c : Dev nD) : W4 m ρ c (Proc.devRef .tc main_v40)
    = Region1.G
        (mean (srcRaw (m ((c : Thread nD τ).loc main_arg1))) (dst (m ((c : Thread nD τ).loc main_arg1))) (hidden m c))
        (hidden m c) (m ((c : Thread nD τ).loc main_arg5))
        (shapeCast S1x128 (m ((c : Thread nD τ).loc main_arg6)) shapeCasts_S128_S1x128) (m ((c : Thread nD τ).loc main_arg7)) :=
  calc W4 m ρ c (Proc.devRef .tc main_v40)
    _ = (dat1 (V3 m ρ) c).arrAt 5 cfg1.N := W4_arr m ρ c 5
    _ = Region1.G (V3 m ρ c main_v38) (V3 m ρ c main_v26) (V3 m ρ c main_arg5) (V3 m ρ c main_v39) (V3 m ρ c main_arg7) :=
        Region1.final (V3 m ρ) c
    _ = _ := by
        rw [V3_v38 m ρ c, V3_v26 m ρ c, V3_arg5 m ρ c, V3_v39 m ρ c, V3_arg7 m ρ c]

end Cert.KernelIdeal.HostReads

end
-- ==== Proof.ReferenceValue.lean ====
/-
  The reference, layer by layer.

  The reference computes, for the rows y (the features, then the hidden features), the neighbour sums divided by
  max(degree, 1) — call that `val_main_v22 y e`, its name among the reference's stages — and then the layer
  (sums through the left weights, plus the bias, plus the rows through the right weights). After the first layer it
  cuts at 0 from below. Read at an entry, a layer is `Sage.denseAt`; the second layer's scaled sums are the first
  layer's formula applied to the hidden features, operation for operation.
-/
import proofs.«179225_j2654289789451_1_alg».proof.Proof.Gen.ReferenceIdeal.Run
import proofs.«179225_j2654289789451_1_alg».proof.Proof.Gen.ReferenceIdeal.Read
import proofs.«179225_j2654289789451_1_alg».proof.Proof.LayerLaws
import proofs.«179225_j2654289789451_1_alg».proof.Proof.LibPlainDot
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx Idealize.SL.Sem

/-- A vector laid as a row and then repeated down the rows holds, at (p, q), the vector's entry q. -/
theorem row_of_vector {α : Type} {n c : Nat} (v : (⟨1, ![c]⟩ : Shape).Idx → α)
    (hb1 : (⟨1, ![c]⟩ : Shape).BroadcastsInDim ⟨2, ![1, c]⟩ (![1] : Fin 1 → Fin 2))
    (hb2 : (⟨2, ![1, c]⟩ : Shape).BroadcastsInDim ⟨2, ![n, c]⟩ (![0, 1] : Fin 2 → Fin 2))
    (p : Fin n) (q : Fin c) :
    broadcastInDim ⟨2, ![n, c]⟩ ![0, 1] hb2 (broadcastInDim ⟨2, ![1, c]⟩ ![1] hb1 v) (ix2 p q) = v (ix1 q) := by
  have e2 : broadcastInDim ⟨2, ![n, c]⟩ ![0, 1] hb2 (broadcastInDim ⟨2, ![1, c]⟩ ![1] hb1 v) (ix2 p q)
      = broadcastInDim ⟨2, ![1, c]⟩ ![1] hb1 v (ix2 (0 : Fin 1) q) :=
    broadcastInDim_apply ![0, 1] hb2 _ (ix2 p q) (ix2 (0 : Fin 1) q) (fun a => match a with
      | ⟨0, _⟩ => by
          show (0 : Nat) = if (1 : Nat) = 1 then 0 else _
          rw [if_pos rfl]
      | ⟨1, _⟩ => by
          show q.val = if c = 1 then 0 else q.val
          by_cases hc : c = 1
          · rw [if_pos hc]; have := q.isLt; omega
          · rw [if_neg hc])
  have e1 : broadcastInDim ⟨2, ![1, c]⟩ ![1] hb1 v (ix2 (0 : Fin 1) q) = v (ix1 q) :=
    broadcastInDim_apply ![1] hb1 v (ix2 (0 : Fin 1) q) (ix1 q) (fun a => match a with
      | ⟨0, _⟩ => by
          show q.val = if c = 1 then 0 else q.val
          by_cases hc : c = 1
          · rw [if_pos hc]; have := q.isLt; omega
          · rw [if_neg hc])
  rw [e2, e1]

/-- One layer as the host spells it — a product, the bias broadcast to every row, a second product — at an entry. -/
theorem host_layer_apply (a x : FVec Ideal S100000x128 .f32) (wl wr : FVec Ideal S128x128 .f32) (b : FVec Ideal S128 .f32)
    (i : S100000x128.Idx) :
    addf (addf (Host.dotGeneral dot_S100000x128_S128x128_S100000x128_1_0_0_1_n_n none a wl)
        (broadcastInDim S100000x128 ![0, 1] bcast_S1x128_S100000x128_0_1 (broadcastInDim S1x128 ![1] bcast_S128_S1x128_1 b)))
      (Host.dotGeneral dot_S100000x128_S128x128_S100000x128_1_0_0_1_n_n none x wr) i
    = Sage.denseAt a x wl b wr (i 0) (i 1) := by
  obtain ⟨p, j, rfl⟩ : ∃ (p : Fin 100000) (j : Fin 128), i = ix2 p j := ⟨i 0, i 1, eq_ix2 i⟩
  have e1 := LibPlainDot.dotGeneral_apply (M := 100000) (K := 128) (N := 128) dot_S100000x128_S128x128_S100000x128_1_0_0_1_n_n
    rfl rfl rfl rfl rfl rfl none .single a wl p j
  have e2 := LibPlainDot.dotGeneral_apply (M := 100000) (K := 128) (N := 128) dot_S100000x128_S128x128_S100000x128_1_0_0_1_n_n
    rfl rfl rfl rfl rfl rfl none .single x wr p j
  have e3 := row_of_vector (n := 100000) (c := 128) b bcast_S128_S1x128_1 bcast_S1x128_S100000x128_0_1 p j
  show FloatOps.dotGeneral _ none _ a wl (ix2 p j) + broadcastInDim _ _ _ _ (ix2 p j) + FloatOps.dotGeneral _ none _ x wr (ix2 p j) = _
  rw [e1, e3, e2]
  rfl

/-- The hidden features: the first layer over the scaled neighbour sums of the features, cut at 0 from below. -/
theorem hidden_eq (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) :
    val_main_v29 (F := Ideal) x0 x1 x2 x3 x4
      = fun i => max (Sage.denseAt (val_main_v22 (F := Ideal) x0 x1) x0 x2 x3 x4 (i 0) (i 1)) 0 := by
  funext i
  rw [val_main_v29_apply, val_main_call0_v0_apply, val_main_call0_cst_apply, Ideal.maximumf_def, Ideal.ofBits_def,
    Ideal.ofBits_zero_f32]
  exact congrArg (fun z => max z 0) (host_layer_apply (val_main_v22 (F := Ideal) x0 x1) x0 x2 x4 x3 i)

/-- The second layer's scaled neighbour sums are the first layer's formula at the hidden features. -/
theorem second_mean (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) :
    val_main_v48 (F := Ideal) x0 x1 x2 x3 x4 = val_main_v22 (F := Ideal) (val_main_v29 (F := Ideal) x0 x1 x2 x3 x4) x1 := rfl

/-- The result: the second layer over the scaled neighbour sums of the hidden features. -/
theorem out_eq (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 x5 : (⟨S128x128, .f32⟩ : BufTy).Contents (Elt Ideal)) (x6 : (⟨S128, .f32⟩ : BufTy).Contents (Elt Ideal))
    (x7 : (⟨S128x128, .f32⟩ : BufTy).Contents (Elt Ideal)) :
    val_main_v54 (F := Ideal) x0 x1 x2 x3 x4 x5 x6 x7
      = fun i => Sage.denseAt (val_main_v22 (F := Ideal) (val_main_v29 (F := Ideal) x0 x1 x2 x3 x4) x1)
          (val_main_v29 (F := Ideal) x0 x1 x2 x3 x4) x5 x6 x7 (i 0) (i 1) := by
  funext i
  rw [← second_mean]
  exact host_layer_apply (val_main_v48 (F := Ideal) x0 x1 x2 x3 x4) (val_main_v29 (F := Ideal) x0 x1 x2 x3 x4) x5 x7 x6 i

end Cert.ReferenceIdeal.RefValue

end
-- ==== Proof.Bridge.lean ====
/-
  The kernel program's result is the reference's.

  Both programs build the same terms from the same arrays, with one difference: the kernel's host code multiplies the
  neighbour sums by the column of reciprocals 1 / max(degree, 1), computed once, where the reference divides them by
  the column of max(degree, 1). By `Sage.scale_by_recip_degree` the two are one array, for any rows whatever, with no
  finiteness needed. The gather, the two scatter-adds and the index wrap-around are the same operations of the same
  edge list on both sides and are never opened. The kernel regions' results and the reference's layers are both
  `Sage.denseAt` entry by entry, the kernel's one-row bias table being the bias vector reshaped. So the hidden features
  agree, and then the results.
-/
import proofs.«179225_j2654289789451_1_alg».proof.Proof.HostReads
import proofs.«179225_j2654289789451_1_alg».proof.Proof.ReferenceValue
import proofs.«179225_j2654289789451_1_alg».proof.Proof.LayerLaws

set_option maxRecDepth 16384

noncomputable section

namespace Cert.Proof.Bridge

open Idealize.ShloMosaic Idealize.ShloMosaic.TcCoe Idealize.ShloMosaic.ValueIdx Idealize.SL.Sem
open Cert.KernelIdeal.HostReads

/-- The scaled neighbour sums of the rows y: the kernel's product with the reciprocals is the reference's quotient. -/
theorem mean_eq (e : IVec Cert.KernelIdeal.S2x1600000 32) (y : FVec Ideal Cert.KernelIdeal.S100000x128 .f32) :
    mean (srcRaw e) (dst e) y = Cert.ReferenceIdeal.Read.val_main_v22 (F := Ideal) y e :=
  (Cert.Sage.scale_by_recip_degree (n := 100000) (c := 128) (nsum (srcRaw e) (dst e) y) (degree (dst e))
    Cert.KernelIdeal.Gen.bcast_S_S100000 Cert.KernelIdeal.Gen.shapeCasts_S100000_S100000x1
    Cert.ReferenceIdeal.Gen.bcast_S100000_S100000x1_0 Cert.KernelIdeal.Gen.bcast_S100000x1_S100000x128_0_1).trans rfl

/-- The one row of a vector reshaped to a one-row table is the vector. -/
theorem row_of_reshape (bl : (⟨1, ![128]⟩ : Shape).Idx → EReal) (h : (⟨1, ![128]⟩ : Shape).ShapeCasts ⟨2, ![1, 128]⟩)
    (j : Fin 128) : shapeCast ⟨2, ![1, 128]⟩ bl h (ix2 (0 : Fin 1) j) = bl (ix1 j) :=
  shapeCast_apply bl h _ _ (by
    rw [Shape.rowMajor_val_one, Shape.rowMajor_val_two]
    show j.val = 0 * 128 + j.val
    omega)

theorem rowOf0_reshape (bl : Cert.KernelIdeal.S128.Idx → EReal) :
    Cert.KernelIdeal.Region0.rowOf (shapeCast Cert.KernelIdeal.S1x128 bl Cert.KernelIdeal.Gen.shapeCasts_S128_S1x128) = bl := by
  funext i
  obtain ⟨j, rfl⟩ : ∃ j : Fin 128, i = ix1 j := ⟨i 0, eq_ix1 i⟩
  exact row_of_reshape bl _ j

theorem rowOf1_reshape (bl : Cert.KernelIdeal.S128.Idx → EReal) :
    Cert.KernelIdeal.Region1.rowOf (shapeCast Cert.KernelIdeal.S1x128 bl Cert.KernelIdeal.Gen.shapeCasts_S128_S1x128) = bl := by
  funext i
  obtain ⟨j, rfl⟩ : ∃ j : Fin 128, i = ix1 j := ⟨i 0, eq_ix1 i⟩
  exact row_of_reshape bl _ j

variable (m : (ℓ : Loc Cert.KernelIdeal.nD Cert.KernelIdeal.τ Cert.KernelIdeal.sig) → Buf (Elt Ideal) ℓ)
  (ρ : Dev Cert.KernelIdeal.nD → PrngReg)

/-- The hidden features agree. -/
theorem hidden_agree (c : Dev Cert.KernelIdeal.nD) :
    Cert.KernelIdeal.HostReads.hidden m c = Cert.ReferenceIdeal.Read.val_main_v29 (F := Ideal)
      (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg3))
      (m ((c : Thread Cert.KernelIdeal.nD Cert.KernelIdeal.τ).loc Cert.KernelIdeal.main_arg4)) := by
  rw [Cert.ReferenceIdeal.RefValue.hidden_eq]
  unfold Cert.KernelIdeal.HostReads.hidden Cert.KernelIdeal.Region0.G
  rw [mean_eq, rowOf0_reshape]

/-- The results agree. -/
theorem result_agree (c : Dev Cert.KernelIdeal.nD) :
    Cert.KernelIdeal.Gen.W4 m ρ c (Proc.devRef .tc Cert.KernelIdeal.main_v40)
      = Cert.ReferenceIdeal.Read.val_main_v54 (F := Ideal)
        (m ((c : Thread Cert.KernelIdeal.nD Cert.KernelIdeal.τ).loc Cert.KernelIdeal.main_arg0))
        (m ((c : Thread Cert.KernelIdeal.nD Cert.KernelIdeal.τ).loc Cert.KernelIdeal.main_arg1))
        (m ((c : Thread Cert.KernelIdeal.nD Cert.KernelIdeal.τ).loc Cert.KernelIdeal.main_arg2))
        (m ((c : Thread Cert.KernelIdeal.nD Cert.KernelIdeal.τ).loc Cert.KernelIdeal.main_arg3))
        (m ((c : Thread Cert.KernelIdeal.nD Cert.KernelIdeal.τ).loc Cert.KernelIdeal.main_arg4))
        (m ((c : Thread Cert.KernelIdeal.nD Cert.KernelIdeal.τ).loc Cert.KernelIdeal.main_arg5))
        (m ((c : Thread Cert.KernelIdeal.nD Cert.KernelIdeal.τ).loc Cert.KernelIdeal.main_arg6))
        (m ((c : Thread Cert.KernelIdeal.nD Cert.KernelIdeal.τ).loc Cert.KernelIdeal.main_arg7)) := by
  rw [result_eq m ρ c, Cert.ReferenceIdeal.RefValue.out_eq]
  unfold Cert.KernelIdeal.Region1.G
  rw [hidden_agree m c, mean_eq, rowOf1_reshape]

end Cert.Proof.Bridge

end
-- ==== Proof.lean ====
/-
  A two-layer graph convolution with mean aggregation: the Pallas kernel program against its jnp reference, over the
  extended reals.

  Each layer maps node rows y to  mean(y) · Wl + b + y · Wr,  where mean(y) is, per node, the sum of the rows of its
  in-neighbours divided by max(in-degree, 1); the first layer is followed by a cut at 0 from below. The reference
  spells this with host operations only. The kernel program computes the gathers, the neighbour sums and the degrees
  on the host too, but scales the sums by the reciprocal 1 / max(degree, 1) (computed once and used for both layers)
  and runs each layer's two matrix products, the bias and the cut in a kernel region that walks twenty blocks of 5000
  node rows, with its operands cast to a shorter float format first.

  Why the two agree at every input, finite or not:
  * a change of float format is the identity on the extended reals, and a product accumulated into zero is the sum;
  * each region's result array is the layer's entry at every index (Proof/Region0Value.lean, Proof/Region1Value.lean),
    as is each layer of the reference (Proof/ReferenceValue.lean);
  * max(d, 1) is never 0, so s * (1 / max(d, 1)) = s / max(d, 1) for every extended real s and d
    (Proof/LayerLaws.lean) — the one law that joins the two sides; the precondition is not used for it;
  * the gather and the scatter-adds are the same operations of the same edge list on both sides and are never opened
    (Proof/Bridge.lean, over Proof/HostReads.lean's reading of the kernel program's host operations).

  The three frames are the programs' runs with the result dropped; the idealization rewrote nothing, so `preserves` is
  trivial.
-/
import proofs.«179225_j2654289789451_1_alg».proof.Defs
import proofs.«179225_j2654289789451_1_alg».proof.Proof.Gen.Kernel
import proofs.«179225_j2654289789451_1_alg».proof.Proof.Gen.Kernel.Skeleton
import proofs.«179225_j2654289789451_1_alg».proof.Proof.Gen.Kernel.Launch
import proofs.«179225_j2654289789451_1_alg».proof.Proof.Gen.Kernel.Points
import proofs.«179225_j2654289789451_1_alg».proof.Proof.Gen.Kernel.Frame
import proofs.«179225_j2654289789451_1_alg».proof.Proof.Gen.KernelIdeal
import proofs.«179225_j2654289789451_1_alg».proof.Proof.Gen.KernelIdeal.Skeleton
import proofs.«179225_j2654289789451_1_alg».proof.Proof.Gen.KernelIdeal.Launch
import proofs.«179225_j2654289789451_1_alg».proof.Proof.Gen.KernelIdeal.Points
import proofs.«179225_j2654289789451_1_alg».proof.Proof.Gen.KernelIdeal.Frame
import proofs.«179225_j2654289789451_1_alg».proof.Proof.Gen.ReferenceIdeal
import proofs.«179225_j2654289789451_1_alg».proof.Proof.Gen.ReferenceIdeal.Run
import proofs.«179225_j2654289789451_1_alg».proof.Proof.Gen.ReferenceIdeal.Read
import proofs.«179225_j2654289789451_1_alg».proof.Proof.Gen.Pre_finite_inputs
import proofs.«179225_j2654289789451_1_alg».proof.Proof.RunNamed
import proofs.«179225_j2654289789451_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's run, the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- Both programs end with the same result array: the kernel program's run names its result as the last boundary's
    contents, the reference's run as its composed term, and the two are one array (`Bridge.result_agree`). -/
theorem algebraic : Cert.algebraic_KernelIdeal_ReferenceIdeal := by
  intro m ρ m' ρ' _ hagree
  refine ⟨fun c => Cert.KernelIdeal.Gen.W4 m ρ c (Proc.devRef .tc Cert.KernelIdeal.main_v40),
    Cert.KernelIdeal.GenRun.run_named (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v54_eq, (hagree c).1, (hagree c).2.1, (hagree c).2.2.1, (hagree c).2.2.2.1,
    (hagree c).2.2.2.2.1, (hagree c).2.2.2.2.2.1, (hagree c).2.2.2.2.2.2.1, (hagree c).2.2.2.2.2.2.2]
  exact (Cert.Proof.Bridge.result_agree m ρ c).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
